-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S512x256, .bf16⟩
  | .local _ .vmem, ⟨0, _⟩ => ⟨S256x256, .f32⟩
  | .local _ .vmem, ⟨1, _⟩ => ⟨S512x256, .bf16⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v20 : BitVec 32 := Scalar.muli v5 c256_i32
  let v21 : Index := Scalar.indexCast v20
  let c0_8 : Index := 0#32
  ![v21.toNat, 0]
def k0_off2 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_11 : BitVec 32 := 256#32
  let v24 : BitVec 32 := Scalar.muli v5 c256_i32_11
  let c0_i32_16 : BitVec 32 := 0#32
  ![v24.toNat, 0]
def k0_dev2 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v25 : BitVec 32 := Scalar.muli v2 c8_i32_12
  let v26 : BitVec 32 := Scalar.addi c0_i32_13 v25
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_14 : BitVec 32 := 4#32
  let v27 : BitVec 32 := Scalar.muli v9 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  hcc0_scratch0 : 2 + S_.numel ≤ 4
  hcc0_scratch1 : 3 + S_.numel ≤ 4
  k0_dev1_lt : ∀ d0 : Dev nD, (k0_dev1 d0) < nD
  k0_off1_inb : ∀ d0 : Dev nD, ∀ a, (k0_off1 d0) a + S256x256.size a ≤ S512x256.size a
  k0_off1_packedbf16 : ∀ d0 : Dev nD, (Rect.unit (s := S512x256) (k0_off1 d0) S256x256.size (k0_off1_inb d0)).PackedRows (EltTy.packing .bf16)
  k0_off2_inb : ∀ d0 : Dev nD, ∀ a, (k0_off2 d0) a + S256x256.size a ≤ S512x256.size a
  k0_off2_wordsbf16 : ∀ d0 : Dev nD, (Rect.unit (s := S512x256) (k0_off2 d0) S256x256.size (k0_off2_inb d0)).WholeWords (EltTy.packing .bf16)
  k0_dev2_lt : ∀ d0 : Dev nD, (k0_dev2 d0) < nD
  hstage0_0 : ∀ j, (stage0_0 j).IsWhole
  hstage0_1 : ∀ j, (stage0_1 j).IsWhole

variable [Facts₀]

abbrev cc0_scratch0 : DmaSems sig S_ := SemArray.consecutive 2 S_ hcc0_scratch0
abbrev cc0_scratch1 : DmaSems sig S_ := SemArray.consecutive 3 S_ hcc0_scratch1

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩

abbrev nBuf : Space → Nat
  | .hbm => 2
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KernelSpec.lean ====
/-
  The pair geometry of the all-gather, and the array every device ends with.

  The sixteen devices sit on a 2 × 2 × 4 mesh; device `c` has second coordinate `y c = c / 4 % 2`. Its partner `nb c`
  is the device with the other second coordinate and the same first and third ones: `nb` is an involution without
  fixed points. The two devices of a pair hold the two row blocks of a 512 × 256 array: device `c` rows
  `[256 · y c, 256 · y c + 256)`. Each converts its 256 × 256 block to the narrower float format, stores it in its
  own rows of the 512 × 256 result and copies those rows into the same rows of its partner's result. So both devices
  of a pair end with the same array `gathered`: row `i` is row `i % 256` of the block of whichever device of the pair
  has second coordinate `i / 256`.
-/
import proofs.«900682_g7700000000000683_dist_ag_v7x_xyz2x2x4_y_m256_n256_bf16_1_alg».proof.Proof.Gen.Kernel
import proofs.«900682_g7700000000000683_dist_ag_v7x_xyz2x2x4_y_m256_n256_bf16_1_alg».proof.Proof.Gen.Kernel.Skeleton
import Idealize.ShloMosaic.Lib.ValueIdx
import Idealize.ShloMosaic.Lib.Pipeline.Value

noncomputable section

namespace Cert.KernelProof

open Cert.Kernel Cert.Kernel.Gen
open Idealize.ShloMosaic Idealize.ShloMosaic.TcCoe Idealize.ShloMosaic.ValueIdx
open Idealize.SL.Sem

variable {F : FTy → Type} [FloatOps F]

/-! ## The partner -/

/-- The second mesh coordinate of device `c`. -/
def yOf (c : Dev nD) : ℕ := (c.val / 4) % 2

theorem nb_lt : ∀ c : Dev nD, (8 * (c.val / 8) + (c.val % 4) + 4) - 4 * ((c.val / 4) % 2) < nD := by decide

/-- The device with the other second coordinate. -/
def nb (c : Dev nD) : Dev nD := ⟨(8 * (c.val / 8) + (c.val % 4) + 4) - 4 * ((c.val / 4) % 2), nb_lt c⟩

theorem nb_nb (c : Dev nD) : nb (nb c) = c := by revert c; decide
theorem nb_ne (c : Dev nD) : nb c ≠ c := by revert c; decide
theorem yOf_lt (c : Dev nD) : yOf c < 2 := Nat.mod_lt _ (by decide)
theorem yOf_nb (c : Dev nD) : yOf (nb c) = 1 - yOf c := by revert c; decide

/-- Both device chains of the body (the signal's and the copy's) name the partner. -/
theorem dev1_eq (c : Dev nD) : (⟨k0_dev1 c, k0_dev1_lt c⟩ : Dev nD) = nb c := Fin.ext (k0_dev1_eq c)
theorem dev2_eq (c : Dev nD) : (⟨k0_dev2 c, k0_dev2_lt c⟩ : Dev nD) = nb c := Fin.ext (k0_dev2_eq c)

def pairing : Dev nD ≃ Dev nD := ⟨nb, nb, nb_nb, nb_nb⟩

/-! ## The rows of a device -/

/-- Rows `[256 · y d, 256 · y d + 256)` of the 512 × 256 result: the rows device `d` fills, in its own result and in
    its partner's. -/
abbrev rows (d : Dev nD) : Rect S512x256 := Rect.unit (s := S512x256) (k0_off2 d) S256x256.size (k0_off2_inb d)

theorem off2_0 (d : Dev nD) : k0_off2 d 0 = 256 * yOf d := by rw [k0_off2_eq]; rfl
theorem off2_1 (d : Dev nD) : k0_off2 d 1 = 0 := by rw [k0_off2_eq]; rfl
theorem off1_eq_off2 (d : Dev nD) : k0_off1 d = k0_off2 d := (k0_off1_eq d).trans (k0_off2_eq d).symm

theorem mem_rows {d : Dev nD} {i : S512x256.Idx} : i ∈ (rows d).set ↔ (i 0).val / 256 = yOf d := by
  rw [Rect.mem_set_unit]
  constructor
  · intro h
    have h0 := h 0
    rw [off2_0] at h0
    have : S256x256.size 0 = 256 := rfl
    have hy := yOf_lt d
    omega
  · intro h a
    have hi0 : (i 0).val < 512 := (i 0).isLt
    have hi1 : (i 1).val < 256 := (i 1).isLt
    have hy := yOf_lt d
    match a with
    | ⟨0, _⟩ =>
      show k0_off2 d 0 ≤ (i 0).val ∧ (i 0).val < k0_off2 d 0 + 256
      rw [off2_0]; omega
    | ⟨1, _⟩ =>
      show k0_off2 d 1 ≤ (i 1).val ∧ (i 1).val < k0_off2 d 1 + 256
      rw [off2_1]; omega

/-- The two devices of a pair fill complementary rows. -/
theorem rows_compl (d : Dev nD) : Finset.univ \ (rows d).set = (rows (nb d)).set := by
  ext i
  rw [Finset.mem_sdiff, mem_rows, mem_rows, yOf_nb]
  have hi0 : (i 0).val < 512 := (i 0).isLt
  have hy := yOf_lt d
  constructor
  · rintro ⟨-, h⟩; omega
  · intro h; exact ⟨Finset.mem_univ _, by omega⟩

theorem rows_disjoint (d : Dev nD) : Disjoint (rows d).set (rows (nb d)).set := by
  rw [← rows_compl]; exact Finset.disjoint_sdiff

theorem rows_union (d : Dev nD) : (rows d).set ∪ (rows (nb d)).set = Finset.univ := by
  rw [← rows_compl]; exact Finset.union_sdiff_of_subset (Finset.subset_univ _)

/-- Where row `x` of a device's block lies in the result. -/
theorem rows_emb_0 (d : Dev nD) (x : S256x256.Idx) : ((rows d).emb x 0).val = 256 * yOf d + (x 0).val := by
  rw [Rect.emb_apply]; show k0_off2 d 0 + 1 * (x 0).val = _; rw [off2_0]; omega
theorem rows_emb_1 (d : Dev nD) (x : S256x256.Idx) : ((rows d).emb x 1).val = (x 1).val := by
  rw [Rect.emb_apply]; show k0_off2 d 1 + 1 * (x 1).val = _; rw [off2_1]; omega

/-! ## The gathered array -/

variable (m : (ℓ : Loc nD τ sig) → Buf (Elt F) ℓ)

/-- Device `d`'s block of the argument, as its input window stages it (the window is the whole array). -/
def xstg (d : Dev nD) : (cc0_stg0_0 : Ref sig .tc).ty.Contents (Elt F) :=
  (win0_0.blk (0 : Fin 1)).view.read (Elt F) (m ((d : Thread nD τ).loc main_arg0))

/-- Device `d`'s block converted to the narrower format: what the body stores (the skeleton's payload). -/
def blk (d : Dev nD) : FVec F S256x256 .bf16 := k0_pay1 (xstg m d)

/-- The device of `c`'s pair that fills row `i`. -/
def owner (c : Dev nD) (i : S512x256.Idx) : Dev nD := if (i 0).val / 256 = yOf c then c else nb c

/-- A row of the result as a row of a block. -/
def local256 (i : S512x256.Idx) : S256x256.Idx :=
  ix2 (⟨(i 0).val % 256, Nat.mod_lt _ (by decide)⟩ : Fin 256) (⟨(i 1).val, (i 1).isLt⟩ : Fin 256)

/-- What every device of `c`'s pair ends with: each row from the block of the device that fills it. -/
def gathered (c : Dev nD) : (cc0_stg1_0 : Ref sig .tc).ty.Contents (Elt F) :=
  fun i => blk m (owner c i) (local256 i)

theorem owner_nb (c : Dev nD) (i : S512x256.Idx) : owner (nb c) i = owner c i := by
  unfold owner
  rw [yOf_nb, nb_nb]
  have hi0 : (i 0).val < 512 := (i 0).isLt
  have hy := yOf_lt c
  by_cases h : (i 0).val / 256 = yOf c
  · rw [if_pos h, if_neg (by omega)]
  · rw [if_neg h, if_pos (by omega)]

/-- Both devices of a pair end with the same array. -/
theorem gathered_nb (c : Dev nD) : gathered m (nb c) = gathered m c := by
  funext i; unfold gathered; rw [owner_nb]

theorem local256_emb (d : Dev nD) (x : S256x256.Idx) : local256 ((rows d).emb x) = x := by
  funext a
  have hx0 : (x 0).val < 256 := (x 0).isLt
  have hy := yOf_lt d
  match a with
  | ⟨0, _⟩ => exact Fin.ext (by show ((rows d).emb x 0).val % 256 = (x 0).val; rw [rows_emb_0]; omega)
  | ⟨1, _⟩ => exact Fin.ext (by show ((rows d).emb x 1).val = (x 1).val; rw [rows_emb_1])

/-- The device's own rows of the gathered array are its converted block; -/
theorem gathered_own (c : Dev nD) (x : S256x256.Idx) : gathered m c ((rows c).emb x) = blk m c x := by
  unfold gathered owner
  have hx0 : (x 0).val < 256 := (x 0).isLt
  have hy := yOf_lt c
  rw [if_pos (by rw [rows_emb_0]; omega), local256_emb]

/-- its partner's rows the partner's. -/
theorem gathered_other (c : Dev nD) (x : S256x256.Idx) : gathered m c ((rows (nb c)).emb x) = blk m (nb c) x := by
  rw [← gathered_nb]; exact gathered_own m (nb c) x

end Cert.KernelProof

end
-- ==== Proof.KernelSched.lean ====
/-
  The protocol of the pairwise all-gather under the rounds discipline, and the pipeline's proof data.

  Each device has three cells: the barrier semaphore, the send semaphore and the receive semaphore of its one copy.
  Every cell has ONE duty, in round 0:
  * the barrier cell of `c` is paid one unit by its partner's signal, which hands `c` the partner's rows
    `rows c` of the partner's result buffer (the rows `c` is about to fill there) and the fact that the partner is at
    round 0 of its receive cell;
  * the send cell of `c` is paid the copy's credit when the copy has read its source, and gives `c` back its own
    rows of its own buffer, holding the gathered array there;
  * the receive cell of `c` is paid the copy's credit by the partner's copy, and hands `c` its other rows, holding
    the gathered array there.
  A device owes, at launch, its partner's barrier cell one unit and its partner's receive cell the copy's credit.
  Levels: staging and send cells 0, barrier cells 1, receive cells 2; a device waits on its barrier owing only a
  receive cell's credit, and on its send and receive cells owing nothing.
-/
import proofs.«900682_g7700000000000683_dist_ag_v7x_xyz2x2x4_y_m256_n256_bf16_1_alg».proof.Proof.KernelSpec
import proofs.«900682_g7700000000000683_dist_ag_v7x_xyz2x2x4_y_m256_n256_bf16_1_alg».proof.Proof.Gen.Kernel.Launch
import proofs.«900682_g7700000000000683_dist_ag_v7x_xyz2x2x4_y_m256_n256_bf16_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs and cells -/

abbrev xM : Memref sig .tc .vmem S256x256 .f32 := Memref.whole cc0_stg0_0
abbrev oM : Memref sig .tc .vmem S512x256 .bf16 := Memref.whole cc0_stg1_0
/-- Rows `rows d` of a result buffer, as the copy names them. -/
abbrev hM (d : Dev nD) : Memref sig .tc .vmem S256x256 .bf16 := oM.slice (rows d) (fun _ => rfl)

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of a copy of 256 rows. -/
abbrev N : ℕ := (hM (0 : Dev nD)).view.dmaCredit
theorem N_pos : 0 < N := View.dmaCredit_pos _ (by decide)

/-! ## Holding rows of a result buffer -/

/-- Rows `rows o` of device `d`'s result buffer, holding `f` there. -/
def rowsPts (d o : Dev nD) (f : Buf (Elt F) ((hM o).view.loc (d : Thread nD τ))) : sProp 𝕄 :=
  (hM o).view.loc (d : Thread nD τ) ↦[(hM o).view.set]{fullShare} f

instance rowsPts_storable (d o : Dev nD) (f) : BI.Storable (upEmb : UEmb _ 𝕄) (rowsPts (F := F) d o f) := by unfold rowsPts; infer_instance

theorem hM_set (o : Dev nD) : (hM o).view.set = (rows o).set := View.set_slice_whole _ _

/-! ## The schedule -/

def barPay (c : Dev nD) : sProp 𝕄 := iprop((∃ f, rowsPts (nb c) c f) ∗ reached ER (recvCell (nb c)) 0)
def recvPay (c : Dev nD) : sProp 𝕄 := rowsPts c (nb c) (gathered m c)
def sendPay (c : Dev nD) : sProp 𝕄 := rowsPts c c (gathered m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty a cell: a barrier cell's of one unit, a send or receive cell's of the copy's credit. -/
def pairRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Unit) :
    BI.Storable (upEmb : UEmb _ 𝕄) ((pairRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (pairRd (F := F) m).duties (barCell c) 0 = {()} := by dsimp only [pairRd]; exact if_pos ⟨rfl, .inl ⟨rfl, rfl⟩⟩
theorem duties_send : (pairRd (F := F) m).duties (sendCell c) 0 = {()} := by dsimp only [pairRd]; exact if_pos ⟨rfl, .inr ⟨rfl, .inl rfl⟩⟩
theorem duties_recv : (pairRd (F := F) m).duties (recvCell c) 0 = {()} := by dsimp only [pairRd]; exact if_pos ⟨rfl, .inr ⟨rfl, .inr rfl⟩⟩
theorem duties_later (g : GSem nD τ sig) : ∀ r, 1 ≤ r → (pairRd (F := F) m).duties g r = ∅ :=
  fun r hr => by dsimp only [pairRd]; rw [if_neg fun h => by omega]

theorem amount_bar (d : Unit) : (pairRd (F := F) m).amount (barCell c) 0 d = 1 := by dsimp only [pairRd]; exact if_pos rfl
theorem amount_send (d : Unit) : (pairRd (F := F) m).amount (sendCell c) 0 d = N := by dsimp only [pairRd]; exact if_neg send_ne_bar
theorem amount_recv (d : Unit) : (pairRd (F := F) m).amount (recvCell c) 0 d = N := by dsimp only [pairRd]; exact if_neg recv_ne_bar

theorem expect_bar : (pairRd (F := F) m).expect (barCell c) 0 = 1 := by
  unfold Schedule.expect Schedule.amountOf; rw [duties_bar, Finset.sum_singleton, amount_bar]
theorem expect_send : (pairRd (F := F) m).expect (sendCell c) 0 = N := by
  unfold Schedule.expect Schedule.amountOf; rw [duties_send, Finset.sum_singleton, amount_send]
theorem expect_recv : (pairRd (F := F) m).expect (recvCell c) 0 = N := by
  unfold Schedule.expect Schedule.amountOf; rw [duties_recv, Finset.sum_singleton, amount_recv]

theorem payload_bar (d : Unit) : (pairRd (F := F) m).payload (barCell c) 0 d = barPay c := by dsimp only [pairRd]; rw [if_pos rfl]
theorem payload_send (d : Unit) : (pairRd (F := F) m).payload (sendCell c) 0 d = sendPay m c := by
  dsimp only [pairRd]; rw [if_neg send_ne_bar, if_neg send_ne_recv, if_pos rfl]
theorem payload_recv (d : Unit) : (pairRd (F := F) m).payload (recvCell c) 0 d = recvPay m c := by
  dsimp only [pairRd]; rw [if_neg recv_ne_bar, if_pos rfl]

/-- The rest of a cell's round, no duty taken: its one payload. -/
theorem rest_bar : bigSep ((pairRd (F := F) m).duties (barCell c) 0 \ ∅) (fun d => (pairRd (F := F) m).payload (barCell c) 0 d) = barPay c := by
  rw [Finset.sdiff_empty, duties_bar, bigSep_singleton, payload_bar]
theorem rest_send : bigSep ((pairRd (F := F) m).duties (sendCell c) 0 \ ∅) (fun d => (pairRd (F := F) m).payload (sendCell c) 0 d) = sendPay m c := by
  rw [Finset.sdiff_empty, duties_send, bigSep_singleton, payload_send]
theorem rest_recv : bigSep ((pairRd (F := F) m).duties (recvCell c) 0 \ ∅) (fun d => (pairRd (F := F) m).payload (recvCell c) 0 d) = recvPay m c := by
  rw [Finset.sdiff_empty, duties_recv, bigSep_singleton, payload_recv]

end Sched

/-! ## What each device owes at launch; the levels -/

/-- Device `c` owes its partner's receive cell the copy's credit and its partner's barrier cell one unit — summed so
    that the signal peels the last summand. -/
def O₀ (c : Dev nD) : CellTallies nD τ sig Unit := tallyAt (recvCell (nb c)) () N + tallyAt (barCell (nb c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nb c) ∨ g = barCell (nb c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (nb c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nb c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nb c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three,
    its partner's barrier cell (its signal) and its partner's receive cell (its copy). -/
def invs (K : Dev nD × Fin 3 → ℕ) (c : Dev nD) : sProp 𝕄 :=
  iprop(cellInv ER (pairRd m) (K (c, 0)) (barCell c) ∗ cellInv ER (pairRd m) (K (c, 1)) (sendCell c) ∗ cellInv ER (pairRd m) (K (c, 2)) (recvCell c)
    ∗ cellInv ER (pairRd m) (K (nb c, 0)) (barCell (nb c)) ∗ cellInv ER (pairRd m) (K (nb c, 2)) (recvCell (nb c)))

instance invs_persistent (K : Dev nD × Fin 3 → ℕ) (c : Dev nD) : BI.Persistent (invs m K c) := by unfold invs; infer_instance

/-- The protocol's ghost state device `c` starts from: the invariants; its positions at round 0 of its three cells;
    the reached-marks of the cells it pays and of its own send and receive cells; the three duty tokens it pays with —
    its partner's barrier duty, its partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (nb c)) 0 ∗ reached ER (recvCell (nb c)) 0 ∗ reached ER (sendCell c) 0 ∗ reached ER (recvCell c) 0
    ∗ dutyTok ER (barCell (nb c)) 0 () ∗ dutyTok ER (recvCell (nb c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := start m c
/-- After the point: the two own cells at zero, closed (the barrier cell is the runtime's: nothing to hand back). -/
def Φ₁ (c : Dev nD) : sProp 𝕄 := iprop(semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gathered m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelProof

end
-- ==== Proof.KernelBody.lean ====
/-
  One device's body, stepped once at a symbolic device.

  The device signals its partner's barrier, handing over the partner's rows of its own result buffer; converts its
  block and stores it in its own rows; waits on its barrier, which brings its rows of the partner's buffer; copies
  its rows there; waits for the copy to have read its source (its own rows come back) and for the partner's copy to
  have landed (its other rows come back, holding the partner's block); and closes its two copy cells. Both halves
  then hold the gathered array, and joined they are the whole result buffer.
-/
import proofs.«900682_g7700000000000683_dist_ag_v7x_xyz2x2x4_y_m256_n256_bf16_1_alg».proof.Proof.KernelSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## A result buffer by rows -/

omit [FloatOps F] in
/-- A whole result buffer is the device's own rows and its partner's. -/
theorem out_split (c : Dev nD) (f : Buf (Elt F) ((c : Thread nD τ).loc cc0_stg1_0)) :
    ((((c : Thread nD τ).loc cc0_stg1_0) ↦{fullShare} f : sProp 𝕄)) ⊣⊢ iprop(rowsPts c c f ∗ rowsPts c (nb c) f) := by
  unfold rowsPts
  rw [hM_set, hM_set, ← rows_compl]
  exact BI.Region.is_split_subset (Finset.subset_univ _)

/-- The rectangle the body loads and stores through is the device's rows. -/
theorem rows1_eq (c : Dev nD) : Rect.unit (s := S512x256) (k0_off1 c) S256x256.size (k0_off1_inb c) = rows c :=
  Rect.unit_congr (off1_eq_off2 c) _ _

/-- Storing the converted block through the device's rows leaves the gathered array on them. -/
theorem store_own (c : Dev nD) (f : Buf (Elt F) ((c : Thread nD τ).loc cc0_stg1_0)) :
    ∀ i ∈ (hM c).view.set, ((oM.access (rows c) : View sig .tc _ _ _).write (Elt F) f (blk m c) Finset.univ) i = gathered m c i := by
  intro i hi
  obtain ⟨x, rfl⟩ := View.exists_emb_of_mem_set _ hi
  rw [View.write_emb_of_mem _ _ (Finset.mem_univ x)]
  show _ = gathered m c ((rows c).emb x)
  rw [gathered_own]; rfl

omit [FloatOps F] in
/-- Copying the rows `rows c` out of a buffer holding `g` into another leaves `g` on those rows. -/
theorem landed_rows (c : Dev nD) (fd g : (cc0_stg1_0 : Ref sig .tc).ty.Contents (Elt F)) :
    ∀ i ∈ (hM c).view.set, ((hM c).view.write (Elt F) fd ((hM c).view.read (Elt F) g) Finset.univ) i = g i := by
  intro i hi
  obtain ⟨x, rfl⟩ := View.exists_emb_of_mem_set _ hi
  rw [View.write_emb_of_mem _ _ (Finset.mem_univ x), View.read_apply, cast_cast, cast_eq]

/-! ## The copy into the partner's buffer -/

/-- The copy of the device's rows into the same rows of the buffer of `n`, its partner: the rule for an addressed
    copy at this protocol's cells. The source holds the gathered array on the device's rows; what lands is the
    gathered array of the partner's pair, which is the same array. -/
theorem wp_copy_pair (K : Dev nD × Fin 3 → ℕ) (c n : Dev nD) (hn : n = nb c)
    {hsc : (hM c : Memref sig (Dev.tc n : Thread nD τ).2.kind .vmem S256x256 .bf16).view.ref.isScScratch = false}
    {hsrc : (hM c : Memref sig .tc .vmem S256x256 .bf16).view.WordExact} {hdst : (hM c : Memref sig .tc .vmem S256x256 .bf16).view.WordExact}
    {hsem : DmaTarget.Typed .vmem (.dma recvS.sem) (.remote (Dev.tc n : Thread nD τ) (hM c : Memref sig .tc .vmem S256x256 .bf16) (.dma sendS.sem) hsc)}
    {α : Type} {Q : α → sProp 𝕄} {k : PUnit → Prog (TpuEff nD τ sig (Elt F) Λ₀ .tc) α}
    (fn : Buf (Elt F) ((hM c).view.loc (nb c : Thread nD τ))) (W : Waits sig Unit) :
    iprop(cellInv ER (pairRd m) (K (c, 1)) (sendCell c) ∗ cellInv ER (pairRd m) (K (nb c, 2)) (recvCell (nb c))
        ∗ rowsPts c c (gathered m c) ∗ rowsPts (nb c) c fn
        ∗ owes (c : Thread nD τ) (tallyAt (recvCell (nb c)) () N) W
        ∗ dutyTok ER (sendCell c) 0 () ∗ reached ER (sendCell c) 0
        ∗ dutyTok ER (recvCell (nb c)) 0 () ∗ reached ER (recvCell (nb c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hM c) (.remote (Dev.tc n : Thread nD τ) (hM c) (.dma sendS.sem) hsc) (.dma recvS.sem) hsrc hdst hsem) k) Q) := by
  subst hn
  unfold rowsPts
  exact Rounds.wp_send_pointsTo 𝒱₀ ER (pairRd m) (c : Thread nD τ) none (κ₁ := K (c, 1)) (κ₂ := K (nb c, 2))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (nb c) ()) 0 (by rw [zero_add]) (W := W)
    (by rw [payload_send]; exact BI.Entails.refl _)
    (by
      rw [payload_recv]; unfold recvPay rowsPts; rw [nb_nb, gathered_nb]
      exact Entails.of_eq (BI.Region.is_congr (landed_rows c fn (gathered m c))))

/-! ## The body -/

section Body

/-- The partner's barrier duty, as the device that pays it reads it: its partner's rows of its own buffer and that it
    is at round 0 of its receive cell. -/
theorem payload_bar_nb (c : Dev nD) (d : Unit) : (pairRd (F := F) m).payload (barCell (nb c)) 0 d
    = iprop((∃ f, ((hM (nb c)).view.loc (c : Thread nD τ) ↦[(hM (nb c)).view.set]{fullShare} f)) ∗ reached ER (recvCell c) 0) := by
  rw [payload_bar]; unfold barPay rowsPts; rw [nb_nb]

variable (K : Dev nD × Fin 3 → ℕ)

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f

def bodyPre (c : Dev nD) : sProp 𝕄 :=
  iprop((ghost m K c ∗ cred (tallyAt (barCell c) () 1) ∗ cred (tallyAt (recvCell c) () N) ∗ levAts L lv)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (gathered m c))

set_option maxHeartbeats 1600000 in
/-- The body from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarN, #HIrcvN⟩, HatB, HatS, HatV, #HrBN, #HrVN, #HrS, #HrV, HtBN, HtVN, HtS⟩, HcB, HcV, #Hlev⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  -- the result buffer by rows
  ihave Hsp := (out_split c g1).1 $$ Hout
  icases Hsp with ⟨Hown, Hoth⟩
  simp only [dev1_eq c, rows1_eq c]
  -- the signal to the partner's barrier: the partner's rows of this buffer go with it, and that this device is at
  -- round 0 of its receive cell
  iapply (Rounds.wp_signal 𝒱₀ ER (pairRd m) (c : Thread nD τ) none (dst := (nb c : Thread nD τ)) (κ := K (nb c, 0))
      (d := ()) (by rw [duties_bar]; exact Finset.mem_singleton_self _) ((amount_bar m (nb c) ()).trans (by decide)) ()
      (tallyAt (recvCell (nb c)) () N) rfl) $$ [HO HtBN Hoth]
  · isplitr; · iexact HIbarN
    isplitl [HO]; · iexact HO
    isplitl [HtBN]; · iexact HtBN
    isplitl [Hoth]
    · rw [payload_bar]; unfold barPay; rw [nb_nb]
      isplitl [Hoth]; · iexists g1; iexact Hoth
      iexact HrV
    · iexact HrBN
  iintro HO
  -- the load of the argument block
  iapply (wp_load 𝒱₀ (c : Thread nD τ) none Set.univ (m := xM) (Finset.subset_univ _)) $$ Hx; iintro Hx
  rw [read_x]
  -- the load of the device's own rows (the value is not used) and the store of the converted block into them
  unfold rowsPts
  iapply (wp_load_rect 𝒱₀ (c : Thread nD τ) none Set.univ (m := oM) (r := rows c) (S := (hM c).view.set) (Finset.Subset.refl _)) $$ Hown; iintro Hown
  iapply (wp_store 𝒱₀ (c : Thread nD τ) none Set.univ (m := oM) (r := rows c) (Mk := Finset.univ) (S := (hM c).view.set) (Finset.Subset.refl _)) $$ Hown; iintro Hown
  ihave Hown := (Entails.of_eq (BI.Region.is_congr (store_own m c g1))) $$ Hown
  -- the wait on the device's barrier, owing the partner's receive credit: the device's rows of the partner's buffer
  iapply (Rounds.wp_wait_rest_token 𝒱₀ ER (pairRd m) (c : Thread nD τ) none (κ := K (c, 0))
      (wpE_semWait_eq 𝒱₀ (c : Thread nD τ) none Set.univ) (Set.mem_univ _) () (O := tallyAt (recvCell (nb c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay rowsPts
  icases Hp with ⟨⟨%fn, HrowsN⟩, #HrVN'⟩
  -- the copy of the device's rows into the partner's buffer
  iapply (wp_copy_pair m K c _ (dev2_eq c) fn (insert (SemLoc.reg barS, ()) W)) $$ [Hown HrowsN HO HtS HtVN]
  · unfold rowsPts
    isplitr; · iexact HIsnd
    isplitr; · iexact HIrcvN
    isplitl [Hown]; · iexact Hown
    isplitl [HrowsN]; · iexact HrowsN
    isplitl [HO]; · iexact HO
    isplitl [HtS]; · iexact HtS
    isplitr; · iexact HrS
    isplitl [HtVN]; · iexact HtVN
    iexact HrVN
  iintro ⟨HcS, HO⟩
  -- the wait on the send cell: the device's own rows back
  iapply (Rounds.wp_wait_rest_token 𝒱₀ ER (pairRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hown := (Entails.of_eq (rest_send m c)) $$ Hpay
  -- the wait on the receive cell: the other rows, holding the partner's block
  iapply (Rounds.wp_wait_rest_token 𝒱₀ ER (pairRd m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hoth := (Entails.of_eq (rest_recv m c)) $$ Hpay
  -- the two copy cells close: their counters at zero are the device's again
  imod (Rounds.cell_close ER (pairRd m) (Set.mem_univ (K (c, 1))) (fun h => h) (R := 0 + 1) (duties_later m (sendCell c))) $$ [HatS] with HzS
  · isplitr; · iexact HIsnd
    iexact HatS
  imod (Rounds.cell_close ER (pairRd m) (Set.mem_univ (K (c, 2))) (fun h => h) (R := 0 + 1) (duties_later m (recvCell c))) $$ [HatV] with HzV
  · isplitr; · iexact HIrcv
    iexact HatV
  -- both halves hold the gathered array: joined, the whole buffer does
  unfold sendPay recvPay
  ihave Hout := (out_split c (gathered m c)).2 $$ [Hown Hoth]
  · isplitl [Hown]; · iexact Hown
    iexact Hoth
  rw [wp_ret]; imodintro
  iapply Hk
  unfold bodyPost Φ₁ Dat.owesAt Pipeline.owesWithin
  rw [show (dats m 0 c).owed t₀.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m c)
  unfold bodyPre' Φ₀ start
  iintro ⟨⟨⟨%K, Hg⟩, Hrest⟩, Ho, Hx, Hout⟩
  iapply (sound_body m K c fun _ => bodyPost m c)
  unfold bodyPre
  isplitr []
  · isplitl [Hg Hrest]
    · isplitl [Hg]; · iexact Hg
      iexact Hrest
    isplitl [Ho]; · iexact Ho
    isplitl [Hx] <;> iassumption
  · iintro H; iexact H

/-- info: 'Cert.KernelProof.body_obligation' depends on axioms: [propext, Classical.choice, Quot.sound] -/
#guard_msgs in #print axioms body_obligation

end Cert.KernelProof

end
-- ==== Proof.KernelLaunch.lean ====
/-
  The launch of the pairwise all-gather: from the body obligation of every device to the run of the whole mesh.

  The launch element funds, for every device, the round state, the position, the reached-mark and the duty token of
  each of its three cells (barrier, send, receive). One update allocates the invariants of all cells of all devices at
  once. The invariants and the reached-marks are persistent and every device may read all of them; a cell's position
  stays with the device that owns the cell; a duty token goes to the device that PAYS the duty: the barrier token and
  the receive token of a device's cells travel to its partner, the send token stays. A device then starts from that
  ghost state, from the credit for what its partner owes its barrier cell (one unit) and its receive cell (the copy's
  credit), and from the level facts. After the run each device's argument array is as it was, and its result array is
  the one write-back of the gathered array of its pair over the whole array.
-/
import proofs.«900682_g7700000000000683_dist_ag_v7x_xyz2x2x4_y_m256_n256_bf16_1_alg».proof.Proof.KernelSched
import proofs.«900682_g7700000000000683_dist_ag_v7x_xyz2x2x4_y_m256_n256_bf16_1_alg».proof.Proof.Gen.Kernel.Frame

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The protocol's cells: the three of every device. -/
def pairCells : Finset (GSem nD τ sig) := Finset.univ.map ⟨kcell, kcell_injective⟩

/-- The duty tokens as minted: one a cell, for its one duty of round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`: its three cells' round states, positions, reached-marks and tokens. -/
def G (c : Dev nD) : sProp 𝕄 :=
  iprop((bigSep Finset.univ fun k : Fin 3 => roundState ER (pairRd m) (kcell (c, k)) 0)
    ∗ (bigSep Finset.univ fun k : Fin 3 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (pairRd m) pairCells pairToks) $$ HX with ⟨Hst, Hr, Hat, Htok⟩
  imodintro
  ihave Hst' := (Entails.of_eq (hX fun g => roundState ER (pairRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, then each device's share -/

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (pairRd m) (kcell (c, k)) 0)
      ⊢ (|={Set.univ}=> bigSep Finset.univ fun k => iprop(∃ κ : ℕ, cellInv ER (pairRd m) κ (kcell (c, k))) : sProp 𝕄) from by
        rw [← bigSep_sep']
        exact (bigSep_mono fun k _ => (Rounds.body_intro ER (pairRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read: all cells' invariants, all cells at round 0. -/
def records (K : Dev nD × Fin 3 → ℕ) : sProp 𝕄 :=
  iprop((bigSep Finset.univ fun ck : Dev nD × Fin 3 => cellInv ER (pairRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (pairRd m) (K ck) (kcell ck) : sProp 𝕄)) ⊢ cellInv ER (pairRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device `c` pays: its partner's barrier duty, its partner's receive duty, its own send duty. -/
def payToks (c : Dev nD) : sProp 𝕄 :=
  iprop(dutyTok ER (barCell (nb c)) 0 () ∗ dutyTok ER (recvCell (nb c)) 0 () ∗ dutyTok ER (sendCell c) 0 ())
/-- What is device `c`'s alone: its positions and those tokens. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (nb c, 0)); iexact HI
    iapply (inv_at m K (nb c, 2)); iexact HI
  isplitl [HaB]; · iexact HaB
  isplitl [HaS]; · iexact HaS
  isplitl [HaV]; · iexact HaV
  isplitr; · iapply (reached_at (F := F) (nb c, 0)); iexact HR
  isplitr; · iapply (reached_at (F := F) (nb c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The tokens dealt across each pair: a device's barrier and receive tokens to its partner (the pairing is a
    bijection of the devices), its send token to itself. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨HB, HS, HV⟩
  isplitl [HB]; · iexact HB
  isplitl [HV]; · iexact HV
  iexact HS

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (pairRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Every device owes its partner's receive cell the copy's credit and its partner's barrier cell one unit, and the
    pairing is a bijection: so the launch deals device `c` exactly those two credits on its own cells. -/
theorem creds (c : Dev nD) :
    (Pipeline.launchCred O₀ c : sProp 𝕄) ⊢ iprop(cred (tallyAt (barCell c) () 1) ∗ cred (tallyAt (recvCell c) () N)) := by
  rw [show (O₀ : Dev nD → CellTallies nD τ sig Unit)
      = fun d => tallyAt (((nb d : Dev nD) : Thread nD τ), SemLoc.dma recvS.sem) () N + tallyAt (((nb d : Dev nD) : Thread nD τ), SemLoc.reg barS) () 1 from funext fun d => rfl,
    Pipeline.launchCred_add]
  iintro ⟨HV, HB⟩
  isplitl [HB]
  · iapply (Pipeline.launchCred_tallyAt (SemLoc.reg barS) nb nb nb_nb nb_nb () 1 c); iexact HB
  · iapply (Pipeline.launchCred_tallyAt (SemLoc.dma recvS.sem) nb nb nb_nb nb_nb () N c); iexact HV

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨HzS, HzV⟩
  isplitr; · iempintro
  isplitl
  · isplitl [HzS] <;> iassumption
  · iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The two arrays after the last point -/

/-- The argument array is never written back. -/
theorem final_arg (c : Dev nD) : (dats (F := F) m 0 c).arrAt (0 : Fin 2) cfg0.N = m ((c.tc : Thread nD τ).loc main_arg0) :=
  (dats (F := F) m 0 c).arrAt_in (0 : Fin 2) rfl _

/-- The result array is written back once, at the one point, and the block is the whole array: it ends at what the
    body left in the staging buffer, the gathered array. -/
theorem final_res (c : Dev nD) : (dats (F := F) m 0 c).arrAt (1 : Fin 2) cfg0.N = gathered m c := by
  have h := (dats (F := F) m 0 c).arrAt_succ (1 : Fin 2) t₀
  rw [flush0_1 t₀, if_pos rfl] at h
  exact h.trans (Memref.write_access_unit_zero_univ (Elt F) main_v1 (funext fun a => Nat.zero_mul _) _ _ _)

/-! ## The run -/

set_option maxRecDepth 8000 in
/-- The run, given the body obligation of every device. -/
theorem run_main_of (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The run with the two arrays read: every device's result array ends at the gathered array of its pair, its argument array as it was. -/
theorem run_gathered_of (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD,
        r.2.mem ((c.tc : Thread nD τ).loc main_v1) = gathered m c
        ∧ r.2.mem ((c.tc : Thread nD τ).loc main_arg0) = m ((c.tc : Thread nD τ).loc main_arg0)) :=
  (θ_run defs _ _).mono (fun _ h c => ⟨(h c (1 : Fin 2)).trans (final_res m c), (h c (0 : Fin 2)).trans (final_arg m c)⟩) (run_main_of m ρ hbody)

/-- info: 'Cert.KernelProof.run_gathered_of' depends on axioms: [propext, Classical.choice, Quot.sound] -/
#guard_msgs in #print axioms run_gathered_of

end Cert.KernelProof

end
-- ==== Proof.KernelIdealSpec.lean ====
/-
  The pair geometry of the all-gather, and the array every device ends with.

  The sixteen devices sit on a 2 × 2 × 4 mesh; device `c` has second coordinate `y c = c / 4 % 2`. Its partner `nb c`
  is the device with the other second coordinate and the same first and third ones: `nb` is an involution without
  fixed points. The two devices of a pair hold the two row blocks of a 512 × 256 array: device `c` rows
  `[256 · y c, 256 · y c + 256)`. Each converts its 256 × 256 block to the narrower float format, stores it in its
  own rows of the 512 × 256 result and copies those rows into the same rows of its partner's result. So both devices
  of a pair end with the same array `gathered`: row `i` is row `i % 256` of the block of whichever device of the pair
  has second coordinate `i / 256`.
-/
import proofs.«900682_g7700000000000683_dist_ag_v7x_xyz2x2x4_y_m256_n256_bf16_1_alg».proof.Proof.Gen.KernelIdeal
import proofs.«900682_g7700000000000683_dist_ag_v7x_xyz2x2x4_y_m256_n256_bf16_1_alg».proof.Proof.Gen.KernelIdeal.Skeleton
import Idealize.ShloMosaic.Lib.ValueIdx
import Idealize.ShloMosaic.Lib.Pipeline.Value

noncomputable section

namespace Cert.KernelIdealProof

open Cert.KernelIdeal Cert.KernelIdeal.Gen
open Idealize.ShloMosaic Idealize.ShloMosaic.TcCoe Idealize.ShloMosaic.ValueIdx
open Idealize.SL.Sem

variable {F : FTy → Type} [FloatOps F]

/-! ## The partner -/

/-- The second mesh coordinate of device `c`. -/
def yOf (c : Dev nD) : ℕ := (c.val / 4) % 2

theorem nb_lt : ∀ c : Dev nD, (8 * (c.val / 8) + (c.val % 4) + 4) - 4 * ((c.val / 4) % 2) < nD := by decide

/-- The device with the other second coordinate. -/
def nb (c : Dev nD) : Dev nD := ⟨(8 * (c.val / 8) + (c.val % 4) + 4) - 4 * ((c.val / 4) % 2), nb_lt c⟩

theorem nb_nb (c : Dev nD) : nb (nb c) = c := by revert c; decide
theorem nb_ne (c : Dev nD) : nb c ≠ c := by revert c; decide
theorem yOf_lt (c : Dev nD) : yOf c < 2 := Nat.mod_lt _ (by decide)
theorem yOf_nb (c : Dev nD) : yOf (nb c) = 1 - yOf c := by revert c; decide

/-- Both device chains of the body (the signal's and the copy's) name the partner. -/
theorem dev1_eq (c : Dev nD) : (⟨k0_dev1 c, k0_dev1_lt c⟩ : Dev nD) = nb c := Fin.ext (k0_dev1_eq c)
theorem dev2_eq (c : Dev nD) : (⟨k0_dev2 c, k0_dev2_lt c⟩ : Dev nD) = nb c := Fin.ext (k0_dev2_eq c)

def pairing : Dev nD ≃ Dev nD := ⟨nb, nb, nb_nb, nb_nb⟩

/-! ## The rows of a device -/

/-- Rows `[256 · y d, 256 · y d + 256)` of the 512 × 256 result: the rows device `d` fills, in its own result and in
    its partner's. -/
abbrev rows (d : Dev nD) : Rect S512x256 := Rect.unit (s := S512x256) (k0_off2 d) S256x256.size (k0_off2_inb d)

theorem off2_0 (d : Dev nD) : k0_off2 d 0 = 256 * yOf d := by rw [k0_off2_eq]; rfl
theorem off2_1 (d : Dev nD) : k0_off2 d 1 = 0 := by rw [k0_off2_eq]; rfl
theorem off1_eq_off2 (d : Dev nD) : k0_off1 d = k0_off2 d := (k0_off1_eq d).trans (k0_off2_eq d).symm

theorem mem_rows {d : Dev nD} {i : S512x256.Idx} : i ∈ (rows d).set ↔ (i 0).val / 256 = yOf d := by
  rw [Rect.mem_set_unit]
  constructor
  · intro h
    have h0 := h 0
    rw [off2_0] at h0
    have : S256x256.size 0 = 256 := rfl
    have hy := yOf_lt d
    omega
  · intro h a
    have hi0 : (i 0).val < 512 := (i 0).isLt
    have hi1 : (i 1).val < 256 := (i 1).isLt
    have hy := yOf_lt d
    match a with
    | ⟨0, _⟩ =>
      show k0_off2 d 0 ≤ (i 0).val ∧ (i 0).val < k0_off2 d 0 + 256
      rw [off2_0]; omega
    | ⟨1, _⟩ =>
      show k0_off2 d 1 ≤ (i 1).val ∧ (i 1).val < k0_off2 d 1 + 256
      rw [off2_1]; omega

/-- The two devices of a pair fill complementary rows. -/
theorem rows_compl (d : Dev nD) : Finset.univ \ (rows d).set = (rows (nb d)).set := by
  ext i
  rw [Finset.mem_sdiff, mem_rows, mem_rows, yOf_nb]
  have hi0 : (i 0).val < 512 := (i 0).isLt
  have hy := yOf_lt d
  constructor
  · rintro ⟨-, h⟩; omega
  · intro h; exact ⟨Finset.mem_univ _, by omega⟩

theorem rows_disjoint (d : Dev nD) : Disjoint (rows d).set (rows (nb d)).set := by
  rw [← rows_compl]; exact Finset.disjoint_sdiff

theorem rows_union (d : Dev nD) : (rows d).set ∪ (rows (nb d)).set = Finset.univ := by
  rw [← rows_compl]; exact Finset.union_sdiff_of_subset (Finset.subset_univ _)

/-- Where row `x` of a device's block lies in the result. -/
theorem rows_emb_0 (d : Dev nD) (x : S256x256.Idx) : ((rows d).emb x 0).val = 256 * yOf d + (x 0).val := by
  rw [Rect.emb_apply]; show k0_off2 d 0 + 1 * (x 0).val = _; rw [off2_0]; omega
theorem rows_emb_1 (d : Dev nD) (x : S256x256.Idx) : ((rows d).emb x 1).val = (x 1).val := by
  rw [Rect.emb_apply]; show k0_off2 d 1 + 1 * (x 1).val = _; rw [off2_1]; omega

/-! ## The gathered array -/

variable (m : (ℓ : Loc nD τ sig) → Buf (Elt F) ℓ)

/-- Device `d`'s block of the argument, as its input window stages it (the window is the whole array). -/
def xstg (d : Dev nD) : (cc0_stg0_0 : Ref sig .tc).ty.Contents (Elt F) :=
  (win0_0.blk (0 : Fin 1)).view.read (Elt F) (m ((d : Thread nD τ).loc main_arg0))

/-- Device `d`'s block converted to the narrower format: what the body stores (the skeleton's payload). -/
def blk (d : Dev nD) : FVec F S256x256 .bf16 := k0_pay1 (xstg m d)

/-- The device of `c`'s pair that fills row `i`. -/
def owner (c : Dev nD) (i : S512x256.Idx) : Dev nD := if (i 0).val / 256 = yOf c then c else nb c

/-- A row of the result as a row of a block. -/
def local256 (i : S512x256.Idx) : S256x256.Idx :=
  ix2 (⟨(i 0).val % 256, Nat.mod_lt _ (by decide)⟩ : Fin 256) (⟨(i 1).val, (i 1).isLt⟩ : Fin 256)

/-- What every device of `c`'s pair ends with: each row from the block of the device that fills it. -/
def gathered (c : Dev nD) : (cc0_stg1_0 : Ref sig .tc).ty.Contents (Elt F) :=
  fun i => blk m (owner c i) (local256 i)

theorem owner_nb (c : Dev nD) (i : S512x256.Idx) : owner (nb c) i = owner c i := by
  unfold owner
  rw [yOf_nb, nb_nb]
  have hi0 : (i 0).val < 512 := (i 0).isLt
  have hy := yOf_lt c
  by_cases h : (i 0).val / 256 = yOf c
  · rw [if_pos h, if_neg (by omega)]
  · rw [if_neg h, if_pos (by omega)]

/-- Both devices of a pair end with the same array. -/
theorem gathered_nb (c : Dev nD) : gathered m (nb c) = gathered m c := by
  funext i; unfold gathered; rw [owner_nb]

theorem local256_emb (d : Dev nD) (x : S256x256.Idx) : local256 ((rows d).emb x) = x := by
  funext a
  have hx0 : (x 0).val < 256 := (x 0).isLt
  have hy := yOf_lt d
  match a with
  | ⟨0, _⟩ => exact Fin.ext (by show ((rows d).emb x 0).val % 256 = (x 0).val; rw [rows_emb_0]; omega)
  | ⟨1, _⟩ => exact Fin.ext (by show ((rows d).emb x 1).val = (x 1).val; rw [rows_emb_1])

/-- The device's own rows of the gathered array are its converted block; -/
theorem gathered_own (c : Dev nD) (x : S256x256.Idx) : gathered m c ((rows c).emb x) = blk m c x := by
  unfold gathered owner
  have hx0 : (x 0).val < 256 := (x 0).isLt
  have hy := yOf_lt c
  rw [if_pos (by rw [rows_emb_0]; omega), local256_emb]

/-- its partner's rows the partner's. -/
theorem gathered_other (c : Dev nD) (x : S256x256.Idx) : gathered m c ((rows (nb c)).emb x) = blk m (nb c) x := by
  rw [← gathered_nb]; exact gathered_own m (nb c) x

end Cert.KernelIdealProof

end
-- ==== Proof.KernelIdealSched.lean ====
/-
  The protocol of the pairwise all-gather under the rounds discipline, and the pipeline's proof data.

  Each device has three cells: the barrier semaphore, the send semaphore and the receive semaphore of its one copy.
  Every cell has ONE duty, in round 0:
  * the barrier cell of `c` is paid one unit by its partner's signal, which hands `c` the partner's rows
    `rows c` of the partner's result buffer (the rows `c` is about to fill there) and the fact that the partner is at
    round 0 of its receive cell;
  * the send cell of `c` is paid the copy's credit when the copy has read its source, and gives `c` back its own
    rows of its own buffer, holding the gathered array there;
  * the receive cell of `c` is paid the copy's credit by the partner's copy, and hands `c` its other rows, holding
    the gathered array there.
  A device owes, at launch, its partner's barrier cell one unit and its partner's receive cell the copy's credit.
  Levels: staging and send cells 0, barrier cells 1, receive cells 2; a device waits on its barrier owing only a
  receive cell's credit, and on its send and receive cells owing nothing.
-/
import proofs.«900682_g7700000000000683_dist_ag_v7x_xyz2x2x4_y_m256_n256_bf16_1_alg».proof.Proof.KernelIdealSpec
import proofs.«900682_g7700000000000683_dist_ag_v7x_xyz2x2x4_y_m256_n256_bf16_1_alg».proof.Proof.Gen.KernelIdeal.Launch
import proofs.«900682_g7700000000000683_dist_ag_v7x_xyz2x2x4_y_m256_n256_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs and cells -/

abbrev xM : Memref sig .tc .vmem S256x256 .f32 := Memref.whole cc0_stg0_0
abbrev oM : Memref sig .tc .vmem S512x256 .bf16 := Memref.whole cc0_stg1_0
/-- Rows `rows d` of a result buffer, as the copy names them. -/
abbrev hM (d : Dev nD) : Memref sig .tc .vmem S256x256 .bf16 := oM.slice (rows d) (fun _ => rfl)

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of a copy of 256 rows. -/
abbrev N : ℕ := (hM (0 : Dev nD)).view.dmaCredit
theorem N_pos : 0 < N := View.dmaCredit_pos _ (by decide)

/-! ## Holding rows of a result buffer -/

/-- Rows `rows o` of device `d`'s result buffer, holding `f` there. -/
def rowsPts (d o : Dev nD) (f : Buf (Elt F) ((hM o).view.loc (d : Thread nD τ))) : sProp 𝕄 :=
  (hM o).view.loc (d : Thread nD τ) ↦[(hM o).view.set]{fullShare} f

instance rowsPts_storable (d o : Dev nD) (f) : BI.Storable (upEmb : UEmb _ 𝕄) (rowsPts (F := F) d o f) := by unfold rowsPts; infer_instance

theorem hM_set (o : Dev nD) : (hM o).view.set = (rows o).set := View.set_slice_whole _ _

/-! ## The schedule -/

def barPay (c : Dev nD) : sProp 𝕄 := iprop((∃ f, rowsPts (nb c) c f) ∗ reached ER (recvCell (nb c)) 0)
def recvPay (c : Dev nD) : sProp 𝕄 := rowsPts c (nb c) (gathered m c)
def sendPay (c : Dev nD) : sProp 𝕄 := rowsPts c c (gathered m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty a cell: a barrier cell's of one unit, a send or receive cell's of the copy's credit. -/
def pairRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Unit) :
    BI.Storable (upEmb : UEmb _ 𝕄) ((pairRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (pairRd (F := F) m).duties (barCell c) 0 = {()} := by dsimp only [pairRd]; exact if_pos ⟨rfl, .inl ⟨rfl, rfl⟩⟩
theorem duties_send : (pairRd (F := F) m).duties (sendCell c) 0 = {()} := by dsimp only [pairRd]; exact if_pos ⟨rfl, .inr ⟨rfl, .inl rfl⟩⟩
theorem duties_recv : (pairRd (F := F) m).duties (recvCell c) 0 = {()} := by dsimp only [pairRd]; exact if_pos ⟨rfl, .inr ⟨rfl, .inr rfl⟩⟩
theorem duties_later (g : GSem nD τ sig) : ∀ r, 1 ≤ r → (pairRd (F := F) m).duties g r = ∅ :=
  fun r hr => by dsimp only [pairRd]; rw [if_neg fun h => by omega]

theorem amount_bar (d : Unit) : (pairRd (F := F) m).amount (barCell c) 0 d = 1 := by dsimp only [pairRd]; exact if_pos rfl
theorem amount_send (d : Unit) : (pairRd (F := F) m).amount (sendCell c) 0 d = N := by dsimp only [pairRd]; exact if_neg send_ne_bar
theorem amount_recv (d : Unit) : (pairRd (F := F) m).amount (recvCell c) 0 d = N := by dsimp only [pairRd]; exact if_neg recv_ne_bar

theorem expect_bar : (pairRd (F := F) m).expect (barCell c) 0 = 1 := by
  unfold Schedule.expect Schedule.amountOf; rw [duties_bar, Finset.sum_singleton, amount_bar]
theorem expect_send : (pairRd (F := F) m).expect (sendCell c) 0 = N := by
  unfold Schedule.expect Schedule.amountOf; rw [duties_send, Finset.sum_singleton, amount_send]
theorem expect_recv : (pairRd (F := F) m).expect (recvCell c) 0 = N := by
  unfold Schedule.expect Schedule.amountOf; rw [duties_recv, Finset.sum_singleton, amount_recv]

theorem payload_bar (d : Unit) : (pairRd (F := F) m).payload (barCell c) 0 d = barPay c := by dsimp only [pairRd]; rw [if_pos rfl]
theorem payload_send (d : Unit) : (pairRd (F := F) m).payload (sendCell c) 0 d = sendPay m c := by
  dsimp only [pairRd]; rw [if_neg send_ne_bar, if_neg send_ne_recv, if_pos rfl]
theorem payload_recv (d : Unit) : (pairRd (F := F) m).payload (recvCell c) 0 d = recvPay m c := by
  dsimp only [pairRd]; rw [if_neg recv_ne_bar, if_pos rfl]

/-- The rest of a cell's round, no duty taken: its one payload. -/
theorem rest_bar : bigSep ((pairRd (F := F) m).duties (barCell c) 0 \ ∅) (fun d => (pairRd (F := F) m).payload (barCell c) 0 d) = barPay c := by
  rw [Finset.sdiff_empty, duties_bar, bigSep_singleton, payload_bar]
theorem rest_send : bigSep ((pairRd (F := F) m).duties (sendCell c) 0 \ ∅) (fun d => (pairRd (F := F) m).payload (sendCell c) 0 d) = sendPay m c := by
  rw [Finset.sdiff_empty, duties_send, bigSep_singleton, payload_send]
theorem rest_recv : bigSep ((pairRd (F := F) m).duties (recvCell c) 0 \ ∅) (fun d => (pairRd (F := F) m).payload (recvCell c) 0 d) = recvPay m c := by
  rw [Finset.sdiff_empty, duties_recv, bigSep_singleton, payload_recv]

end Sched

/-! ## What each device owes at launch; the levels -/

/-- Device `c` owes its partner's receive cell the copy's credit and its partner's barrier cell one unit — summed so
    that the signal peels the last summand. -/
def O₀ (c : Dev nD) : CellTallies nD τ sig Unit := tallyAt (recvCell (nb c)) () N + tallyAt (barCell (nb c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nb c) ∨ g = barCell (nb c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (nb c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nb c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nb c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three,
    its partner's barrier cell (its signal) and its partner's receive cell (its copy). -/
def invs (K : Dev nD × Fin 3 → ℕ) (c : Dev nD) : sProp 𝕄 :=
  iprop(cellInv ER (pairRd m) (K (c, 0)) (barCell c) ∗ cellInv ER (pairRd m) (K (c, 1)) (sendCell c) ∗ cellInv ER (pairRd m) (K (c, 2)) (recvCell c)
    ∗ cellInv ER (pairRd m) (K (nb c, 0)) (barCell (nb c)) ∗ cellInv ER (pairRd m) (K (nb c, 2)) (recvCell (nb c)))

instance invs_persistent (K : Dev nD × Fin 3 → ℕ) (c : Dev nD) : BI.Persistent (invs m K c) := by unfold invs; infer_instance

/-- The protocol's ghost state device `c` starts from: the invariants; its positions at round 0 of its three cells;
    the reached-marks of the cells it pays and of its own send and receive cells; the three duty tokens it pays with —
    its partner's barrier duty, its partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (nb c)) 0 ∗ reached ER (recvCell (nb c)) 0 ∗ reached ER (sendCell c) 0 ∗ reached ER (recvCell c) 0
    ∗ dutyTok ER (barCell (nb c)) 0 () ∗ dutyTok ER (recvCell (nb c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := start m c
/-- After the point: the two own cells at zero, closed (the barrier cell is the runtime's: nothing to hand back). -/
def Φ₁ (c : Dev nD) : sProp 𝕄 := iprop(semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gathered m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdealProof

end
-- ==== Proof.KernelIdealBody.lean ====
/-
  One device's body, stepped once at a symbolic device.

  The device signals its partner's barrier, handing over the partner's rows of its own result buffer; converts its
  block and stores it in its own rows; waits on its barrier, which brings its rows of the partner's buffer; copies
  its rows there; waits for the copy to have read its source (its own rows come back) and for the partner's copy to
  have landed (its other rows come back, holding the partner's block); and closes its two copy cells. Both halves
  then hold the gathered array, and joined they are the whole result buffer.
-/
import proofs.«900682_g7700000000000683_dist_ag_v7x_xyz2x2x4_y_m256_n256_bf16_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## A result buffer by rows -/

omit [FloatOps F] in
/-- A whole result buffer is the device's own rows and its partner's. -/
theorem out_split (c : Dev nD) (f : Buf (Elt F) ((c : Thread nD τ).loc cc0_stg1_0)) :
    ((((c : Thread nD τ).loc cc0_stg1_0) ↦{fullShare} f : sProp 𝕄)) ⊣⊢ iprop(rowsPts c c f ∗ rowsPts c (nb c) f) := by
  unfold rowsPts
  rw [hM_set, hM_set, ← rows_compl]
  exact BI.Region.is_split_subset (Finset.subset_univ _)

/-- The rectangle the body loads and stores through is the device's rows. -/
theorem rows1_eq (c : Dev nD) : Rect.unit (s := S512x256) (k0_off1 c) S256x256.size (k0_off1_inb c) = rows c :=
  Rect.unit_congr (off1_eq_off2 c) _ _

/-- Storing the converted block through the device's rows leaves the gathered array on them. -/
theorem store_own (c : Dev nD) (f : Buf (Elt F) ((c : Thread nD τ).loc cc0_stg1_0)) :
    ∀ i ∈ (hM c).view.set, ((oM.access (rows c) : View sig .tc _ _ _).write (Elt F) f (blk m c) Finset.univ) i = gathered m c i := by
  intro i hi
  obtain ⟨x, rfl⟩ := View.exists_emb_of_mem_set _ hi
  rw [View.write_emb_of_mem _ _ (Finset.mem_univ x)]
  show _ = gathered m c ((rows c).emb x)
  rw [gathered_own]; rfl

omit [FloatOps F] in
/-- Copying the rows `rows c` out of a buffer holding `g` into another leaves `g` on those rows. -/
theorem landed_rows (c : Dev nD) (fd g : (cc0_stg1_0 : Ref sig .tc).ty.Contents (Elt F)) :
    ∀ i ∈ (hM c).view.set, ((hM c).view.write (Elt F) fd ((hM c).view.read (Elt F) g) Finset.univ) i = g i := by
  intro i hi
  obtain ⟨x, rfl⟩ := View.exists_emb_of_mem_set _ hi
  rw [View.write_emb_of_mem _ _ (Finset.mem_univ x), View.read_apply, cast_cast, cast_eq]

/-! ## The copy into the partner's buffer -/

/-- The copy of the device's rows into the same rows of the buffer of `n`, its partner: the rule for an addressed
    copy at this protocol's cells. The source holds the gathered array on the device's rows; what lands is the
    gathered array of the partner's pair, which is the same array. -/
theorem wp_copy_pair (K : Dev nD × Fin 3 → ℕ) (c n : Dev nD) (hn : n = nb c)
    {hsc : (hM c : Memref sig (Dev.tc n : Thread nD τ).2.kind .vmem S256x256 .bf16).view.ref.isScScratch = false}
    {hsrc : (hM c : Memref sig .tc .vmem S256x256 .bf16).view.WordExact} {hdst : (hM c : Memref sig .tc .vmem S256x256 .bf16).view.WordExact}
    {hsem : DmaTarget.Typed .vmem (.dma recvS.sem) (.remote (Dev.tc n : Thread nD τ) (hM c : Memref sig .tc .vmem S256x256 .bf16) (.dma sendS.sem) hsc)}
    {α : Type} {Q : α → sProp 𝕄} {k : PUnit → Prog (TpuEff nD τ sig (Elt F) Λ₀ .tc) α}
    (fn : Buf (Elt F) ((hM c).view.loc (nb c : Thread nD τ))) (W : Waits sig Unit) :
    iprop(cellInv ER (pairRd m) (K (c, 1)) (sendCell c) ∗ cellInv ER (pairRd m) (K (nb c, 2)) (recvCell (nb c))
        ∗ rowsPts c c (gathered m c) ∗ rowsPts (nb c) c fn
        ∗ owes (c : Thread nD τ) (tallyAt (recvCell (nb c)) () N) W
        ∗ dutyTok ER (sendCell c) 0 () ∗ reached ER (sendCell c) 0
        ∗ dutyTok ER (recvCell (nb c)) 0 () ∗ reached ER (recvCell (nb c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hM c) (.remote (Dev.tc n : Thread nD τ) (hM c) (.dma sendS.sem) hsc) (.dma recvS.sem) hsrc hdst hsem) k) Q) := by
  subst hn
  unfold rowsPts
  exact Rounds.wp_send_pointsTo 𝒱₀ ER (pairRd m) (c : Thread nD τ) none (κ₁ := K (c, 1)) (κ₂ := K (nb c, 2))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (nb c) ()) 0 (by rw [zero_add]) (W := W)
    (by rw [payload_send]; exact BI.Entails.refl _)
    (by
      rw [payload_recv]; unfold recvPay rowsPts; rw [nb_nb, gathered_nb]
      exact Entails.of_eq (BI.Region.is_congr (landed_rows c fn (gathered m c))))

/-! ## The body -/

section Body

/-- The partner's barrier duty, as the device that pays it reads it: its partner's rows of its own buffer and that it
    is at round 0 of its receive cell. -/
theorem payload_bar_nb (c : Dev nD) (d : Unit) : (pairRd (F := F) m).payload (barCell (nb c)) 0 d
    = iprop((∃ f, ((hM (nb c)).view.loc (c : Thread nD τ) ↦[(hM (nb c)).view.set]{fullShare} f)) ∗ reached ER (recvCell c) 0) := by
  rw [payload_bar]; unfold barPay rowsPts; rw [nb_nb]

variable (K : Dev nD × Fin 3 → ℕ)

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f

def bodyPre (c : Dev nD) : sProp 𝕄 :=
  iprop((ghost m K c ∗ cred (tallyAt (barCell c) () 1) ∗ cred (tallyAt (recvCell c) () N) ∗ levAts L lv)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (gathered m c))

set_option maxHeartbeats 1600000 in
/-- The body from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarN, #HIrcvN⟩, HatB, HatS, HatV, #HrBN, #HrVN, #HrS, #HrV, HtBN, HtVN, HtS⟩, HcB, HcV, #Hlev⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  -- the result buffer by rows
  ihave Hsp := (out_split c g1).1 $$ Hout
  icases Hsp with ⟨Hown, Hoth⟩
  simp only [dev1_eq c, rows1_eq c]
  -- the signal to the partner's barrier: the partner's rows of this buffer go with it, and that this device is at
  -- round 0 of its receive cell
  iapply (Rounds.wp_signal 𝒱₀ ER (pairRd m) (c : Thread nD τ) none (dst := (nb c : Thread nD τ)) (κ := K (nb c, 0))
      (d := ()) (by rw [duties_bar]; exact Finset.mem_singleton_self _) ((amount_bar m (nb c) ()).trans (by decide)) ()
      (tallyAt (recvCell (nb c)) () N) rfl) $$ [HO HtBN Hoth]
  · isplitr; · iexact HIbarN
    isplitl [HO]; · iexact HO
    isplitl [HtBN]; · iexact HtBN
    isplitl [Hoth]
    · rw [payload_bar]; unfold barPay; rw [nb_nb]
      isplitl [Hoth]; · iexists g1; iexact Hoth
      iexact HrV
    · iexact HrBN
  iintro HO
  -- the load of the argument block
  iapply (wp_load 𝒱₀ (c : Thread nD τ) none Set.univ (m := xM) (Finset.subset_univ _)) $$ Hx; iintro Hx
  rw [read_x]
  -- the load of the device's own rows (the value is not used) and the store of the converted block into them
  unfold rowsPts
  iapply (wp_load_rect 𝒱₀ (c : Thread nD τ) none Set.univ (m := oM) (r := rows c) (S := (hM c).view.set) (Finset.Subset.refl _)) $$ Hown; iintro Hown
  iapply (wp_store 𝒱₀ (c : Thread nD τ) none Set.univ (m := oM) (r := rows c) (Mk := Finset.univ) (S := (hM c).view.set) (Finset.Subset.refl _)) $$ Hown; iintro Hown
  ihave Hown := (Entails.of_eq (BI.Region.is_congr (store_own m c g1))) $$ Hown
  -- the wait on the device's barrier, owing the partner's receive credit: the device's rows of the partner's buffer
  iapply (Rounds.wp_wait_rest_token 𝒱₀ ER (pairRd m) (c : Thread nD τ) none (κ := K (c, 0))
      (wpE_semWait_eq 𝒱₀ (c : Thread nD τ) none Set.univ) (Set.mem_univ _) () (O := tallyAt (recvCell (nb c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay rowsPts
  icases Hp with ⟨⟨%fn, HrowsN⟩, #HrVN'⟩
  -- the copy of the device's rows into the partner's buffer
  iapply (wp_copy_pair m K c _ (dev2_eq c) fn (insert (SemLoc.reg barS, ()) W)) $$ [Hown HrowsN HO HtS HtVN]
  · unfold rowsPts
    isplitr; · iexact HIsnd
    isplitr; · iexact HIrcvN
    isplitl [Hown]; · iexact Hown
    isplitl [HrowsN]; · iexact HrowsN
    isplitl [HO]; · iexact HO
    isplitl [HtS]; · iexact HtS
    isplitr; · iexact HrS
    isplitl [HtVN]; · iexact HtVN
    iexact HrVN
  iintro ⟨HcS, HO⟩
  -- the wait on the send cell: the device's own rows back
  iapply (Rounds.wp_wait_rest_token 𝒱₀ ER (pairRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hown := (Entails.of_eq (rest_send m c)) $$ Hpay
  -- the wait on the receive cell: the other rows, holding the partner's block
  iapply (Rounds.wp_wait_rest_token 𝒱₀ ER (pairRd m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hoth := (Entails.of_eq (rest_recv m c)) $$ Hpay
  -- the two copy cells close: their counters at zero are the device's again
  imod (Rounds.cell_close ER (pairRd m) (Set.mem_univ (K (c, 1))) (fun h => h) (R := 0 + 1) (duties_later m (sendCell c))) $$ [HatS] with HzS
  · isplitr; · iexact HIsnd
    iexact HatS
  imod (Rounds.cell_close ER (pairRd m) (Set.mem_univ (K (c, 2))) (fun h => h) (R := 0 + 1) (duties_later m (recvCell c))) $$ [HatV] with HzV
  · isplitr; · iexact HIrcv
    iexact HatV
  -- both halves hold the gathered array: joined, the whole buffer does
  unfold sendPay recvPay
  ihave Hout := (out_split c (gathered m c)).2 $$ [Hown Hoth]
  · isplitl [Hown]; · iexact Hown
    iexact Hoth
  rw [wp_ret]; imodintro
  iapply Hk
  unfold bodyPost Φ₁ Dat.owesAt Pipeline.owesWithin
  rw [show (dats m 0 c).owed t₀.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m c)
  unfold bodyPre' Φ₀ start
  iintro ⟨⟨⟨%K, Hg⟩, Hrest⟩, Ho, Hx, Hout⟩
  iapply (sound_body m K c fun _ => bodyPost m c)
  unfold bodyPre
  isplitr []
  · isplitl [Hg Hrest]
    · isplitl [Hg]; · iexact Hg
      iexact Hrest
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Cert.KernelIdealProof

end
-- ==== Proof.KernelIdealLaunch.lean ====
/-
  The launch of the pairwise all-gather: from the body obligation of every device to the run of the whole mesh.

  The launch element funds, for every device, the round state, the position, the reached-mark and the duty token of
  each of its three cells (barrier, send, receive). One update allocates the invariants of all cells of all devices at
  once. The invariants and the reached-marks are persistent and every device may read all of them; a cell's position
  stays with the device that owns the cell; a duty token goes to the device that PAYS the duty: the barrier token and
  the receive token of a device's cells travel to its partner, the send token stays. A device then starts from that
  ghost state, from the credit for what its partner owes its barrier cell (one unit) and its receive cell (the copy's
  credit), and from the level facts. After the run each device's argument array is as it was, and its result array is
  the one write-back of the gathered array of its pair over the whole array.
-/
import proofs.«900682_g7700000000000683_dist_ag_v7x_xyz2x2x4_y_m256_n256_bf16_1_alg».proof.Proof.KernelIdealSched
import proofs.«900682_g7700000000000683_dist_ag_v7x_xyz2x2x4_y_m256_n256_bf16_1_alg».proof.Proof.Gen.KernelIdeal.Frame

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The protocol's cells: the three of every device. -/
def pairCells : Finset (GSem nD τ sig) := Finset.univ.map ⟨kcell, kcell_injective⟩

/-- The duty tokens as minted: one a cell, for its one duty of round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`: its three cells' round states, positions, reached-marks and tokens. -/
def G (c : Dev nD) : sProp 𝕄 :=
  iprop((bigSep Finset.univ fun k : Fin 3 => roundState ER (pairRd m) (kcell (c, k)) 0)
    ∗ (bigSep Finset.univ fun k : Fin 3 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (pairRd m) pairCells pairToks) $$ HX with ⟨Hst, Hr, Hat, Htok⟩
  imodintro
  ihave Hst' := (Entails.of_eq (hX fun g => roundState ER (pairRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, then each device's share -/

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (pairRd m) (kcell (c, k)) 0)
      ⊢ (|={Set.univ}=> bigSep Finset.univ fun k => iprop(∃ κ : ℕ, cellInv ER (pairRd m) κ (kcell (c, k))) : sProp 𝕄) from by
        rw [← bigSep_sep']
        exact (bigSep_mono fun k _ => (Rounds.body_intro ER (pairRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read: all cells' invariants, all cells at round 0. -/
def records (K : Dev nD × Fin 3 → ℕ) : sProp 𝕄 :=
  iprop((bigSep Finset.univ fun ck : Dev nD × Fin 3 => cellInv ER (pairRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (pairRd m) (K ck) (kcell ck) : sProp 𝕄)) ⊢ cellInv ER (pairRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device `c` pays: its partner's barrier duty, its partner's receive duty, its own send duty. -/
def payToks (c : Dev nD) : sProp 𝕄 :=
  iprop(dutyTok ER (barCell (nb c)) 0 () ∗ dutyTok ER (recvCell (nb c)) 0 () ∗ dutyTok ER (sendCell c) 0 ())
/-- What is device `c`'s alone: its positions and those tokens. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (nb c, 0)); iexact HI
    iapply (inv_at m K (nb c, 2)); iexact HI
  isplitl [HaB]; · iexact HaB
  isplitl [HaS]; · iexact HaS
  isplitl [HaV]; · iexact HaV
  isplitr; · iapply (reached_at (F := F) (nb c, 0)); iexact HR
  isplitr; · iapply (reached_at (F := F) (nb c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The tokens dealt across each pair: a device's barrier and receive tokens to its partner (the pairing is a
    bijection of the devices), its send token to itself. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨HB, HS, HV⟩
  isplitl [HB]; · iexact HB
  isplitl [HV]; · iexact HV
  iexact HS

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (pairRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Every device owes its partner's receive cell the copy's credit and its partner's barrier cell one unit, and the
    pairing is a bijection: so the launch deals device `c` exactly those two credits on its own cells. -/
theorem creds (c : Dev nD) :
    (Pipeline.launchCred O₀ c : sProp 𝕄) ⊢ iprop(cred (tallyAt (barCell c) () 1) ∗ cred (tallyAt (recvCell c) () N)) := by
  rw [show (O₀ : Dev nD → CellTallies nD τ sig Unit)
      = fun d => tallyAt (((nb d : Dev nD) : Thread nD τ), SemLoc.dma recvS.sem) () N + tallyAt (((nb d : Dev nD) : Thread nD τ), SemLoc.reg barS) () 1 from funext fun d => rfl,
    Pipeline.launchCred_add]
  iintro ⟨HV, HB⟩
  isplitl [HB]
  · iapply (Pipeline.launchCred_tallyAt (SemLoc.reg barS) nb nb nb_nb nb_nb () 1 c); iexact HB
  · iapply (Pipeline.launchCred_tallyAt (SemLoc.dma recvS.sem) nb nb nb_nb nb_nb () N c); iexact HV

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨HzS, HzV⟩
  isplitr; · iempintro
  isplitl
  · isplitl [HzS] <;> iassumption
  · iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The two arrays after the last point -/

/-- The argument array is never written back. -/
theorem final_arg (c : Dev nD) : (dats (F := F) m 0 c).arrAt (0 : Fin 2) cfg0.N = m ((c.tc : Thread nD τ).loc main_arg0) :=
  (dats (F := F) m 0 c).arrAt_in (0 : Fin 2) rfl _

/-- The result array is written back once, at the one point, and the block is the whole array: it ends at what the
    body left in the staging buffer, the gathered array. -/
theorem final_res (c : Dev nD) : (dats (F := F) m 0 c).arrAt (1 : Fin 2) cfg0.N = gathered m c := by
  have h := (dats (F := F) m 0 c).arrAt_succ (1 : Fin 2) t₀
  rw [flush0_1 t₀, if_pos rfl] at h
  exact h.trans (Memref.write_access_unit_zero_univ (Elt F) main_v1 (funext fun a => Nat.zero_mul _) _ _ _)

/-! ## The run -/

set_option maxRecDepth 8000 in
/-- The run, given the body obligation of every device. -/
theorem run_main_of (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The run with the two arrays read: every device's result array ends at the gathered array of its pair, its argument array as it was. -/
theorem run_gathered_of (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD,
        r.2.mem ((c.tc : Thread nD τ).loc main_v1) = gathered m c
        ∧ r.2.mem ((c.tc : Thread nD τ).loc main_arg0) = m ((c.tc : Thread nD τ).loc main_arg0)) :=
  (θ_run defs _ _).mono (fun _ h c => ⟨(h c (1 : Fin 2)).trans (final_res m c), (h c (0 : Fin 2)).trans (final_arg m c)⟩) (run_main_of m ρ hbody)

/-- info: 'Cert.KernelIdealProof.run_gathered_of' depends on axioms: [propext, Classical.choice, Quot.sound] -/
#guard_msgs in #print axioms run_gathered_of

end Cert.KernelIdealProof

end
-- ==== Proof.IdealValue.lean ====
/-
  The value of the all-gather against the reference, over the extended reals.
-/
import proofs.«900682_g7700000000000683_dist_ag_v7x_xyz2x2x4_y_m256_n256_bf16_1_alg».proof.Defs
import proofs.«900682_g7700000000000683_dist_ag_v7x_xyz2x2x4_y_m256_n256_bf16_1_alg».proof.Proof.KernelIdealSpec
import proofs.«900682_g7700000000000683_dist_ag_v7x_xyz2x2x4_y_m256_n256_bf16_1_alg».proof.Proof.Gen.ReferenceIdeal
import proofs.«900682_g7700000000000683_dist_ag_v7x_xyz2x2x4_y_m256_n256_bf16_1_alg».proof.Proof.Gen.ReferenceIdeal.Run
import proofs.«900682_g7700000000000683_dist_ag_v7x_xyz2x2x4_y_m256_n256_bf16_1_alg».proof.Proof.Gen.ReferenceIdeal.Read
import proofs.«900682_g7700000000000683_dist_ag_v7x_xyz2x2x4_y_m256_n256_bf16_1_alg».proof.Proof.Gen.Pre_finite_inputs_Kernel
import proofs.«900682_g7700000000000683_dist_ag_v7x_xyz2x2x4_y_m256_n256_bf16_1_alg».proof.Proof.Gen.Pre_finite_inputs_ReferenceIdeal
import Idealize.ShloMosaic.Lib.Layout
import Idealize.ShloMosaic.Lib.ValueIdx
import Idealize.ShloMosaic.Lib.Pipeline.Value

noncomputable section

namespace Cert.KernelIdealProof.Value

open Cert.KernelIdeal Cert.KernelIdeal.Gen Cert.KernelIdealProof
open Idealize.ShloMosaic Idealize.ShloMosaic.TcCoe Idealize.ShloMosaic.ValueIdx
open Idealize.SL.Sem

/-- The idealized kernel's run with its result named: every device ends with the gathered array of its pair, its
    argument unchanged. -/
def GatherRun : Prop :=
  ∀ (m : (ℓ : Loc nD τ sig) → Buf (Elt Ideal) ℓ) (ρ : Dev nD → PrngReg),
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v1) = gathered m c
        ∧ r.2.mem ((c.tc : Thread nD τ).loc main_arg0) = m ((c.tc : Thread nD τ).loc main_arg0))

variable {F : FTy → Type} [FloatOps F]

/-! ## A device's converted block, read at an index -/

/-- The input window is the whole argument buffer, so what it stages is the buffer's contents. -/
theorem xstg_eq (m : (ℓ : Loc nD τ sig) → Buf (Elt F) ℓ) (d : Dev nD) :
    xstg m d = m ((d : Thread nD τ).loc main_arg0) :=
  Memref.read_access_unit_zero (Elt F) main_arg0 (funext fun a => Nat.zero_mul _) _ _

/-- The converted block at an index is the conversion of the buffer's element there: the reshape to the same
    shape is the identity and the conversion acts element by element. -/
theorem blk_apply (m : (ℓ : Loc nD τ sig) → Buf (Elt F) ℓ) (d : Dev nD) (x : S256x256.Idx) :
    blk m d x = FloatOps.truncf .bf16 bitsLt_bf16_f32 (m ((d : Thread nD τ).loc main_arg0) x) := by
  unfold blk k0_pay1
  rw [shapeCast_self, xstg_eq]
  rfl

/-! ## The block a device holds -/

/-- On the 2 × 2 × 4 mesh, an array cut along its rows by the second axis gives device `d` row block `y d`, -/
theorem meshBlock_0 : ∀ d : Dev nD, ((Layout.meshBlock [2, 2, 4] ![[1], []] d) 0).val = yOf d := by decide
/-- and its one column block. -/
theorem meshBlock_1 : ∀ d : Dev nD, ((Layout.meshBlock [2, 2, 4] ![[1], []] d) 1).val = 0 := by decide

/-- The device of the pair that fills row `i` is the one whose second coordinate is `i / 256`. -/
theorem yOf_owner (c : Dev nD) (i : S512x256.Idx) : yOf (owner c i) = (i 0).val / 256 := by
  unfold owner
  have hi0 : (i 0).val < 512 := (i 0).isLt
  have hy := yOf_lt c
  by_cases h : (i 0).val / 256 = yOf c
  · rw [if_pos h]; exact h.symm
  · rw [if_neg h, yOf_nb]; omega

/-- Row `i % 256` of the block of the device that fills row `i` is row `256 · (i / 256) + i % 256 = i` of the whole
    array, at the same column. -/
theorem idx_owner (c : Dev nD) (i : S512x256.Idx)
    (h : Layout.TilesN ⟨2, ![256, 256]⟩ ⟨2, ![512, 256]⟩ fun b => Layout.cutSize [2, 2, 4] ((![[1], []] : Fin 2 → List Nat) b)) :
    h.idx (Layout.meshBlock [2, 2, 4] ![[1], []] (owner c i)) (local256 i) = i := by
  funext b
  apply Fin.ext
  rw [Layout.TilesN.idx_val]
  have hy := yOf_owner c i
  have hi0 : (i 0).val < 512 := (i 0).isLt
  match b with
  | ⟨0, _⟩ =>
    show ((Layout.meshBlock [2, 2, 4] ![[1], []] (owner c i)) 0).val * 256 + (i 0).val % 256 = (i 0).val
    rw [meshBlock_0, hy]; omega
  | ⟨1, _⟩ =>
    show ((Layout.meshBlock [2, 2, 4] ![[1], []] (owner c i)) 1).val * 256 + (i 1).val = (i 1).val
    rw [meshBlock_1]; omega

/-- When every device's argument buffer is its block of one whole array `X`, the array every device ends with is
    the conversion of `X`: row `i` comes from the device of the pair holding row `i` of `X`. -/
theorem gathered_eq (m : (ℓ : Loc nD τ sig) → Buf (Elt F) ℓ) (X : (⟨S512x256, .f32⟩ : BufTy).Contents (Elt F))
    (hagree : ∀ c : Dev nD, m ((c.tc : Thread nD τ).loc main_arg0)
      = Layout.blockN ⟨2, ![256, 256]⟩ ⟨2, ![512, 256]⟩ (Layout.meshBlock [2, 2, 4] ![[1], []] c) X)
    (c : Dev nD) : gathered m c = truncf .bf16 X bitsLt_bf16_f32 := by
  funext i
  show blk m (owner c i) (local256 i) = FloatOps.truncf .bf16 bitsLt_bf16_f32 (X i)
  rw [blk_apply, hagree (owner c i), Layout.blockN_apply, idx_owner]

/-! ## The two claims -/

theorem frame_ri : Cert.frame_ReferenceIdeal :=
  fun m ρ _ => (θ_run Cert.ReferenceIdeal.defs _ _).mono (fun _ h c => (h c).2)
    (Cert.ReferenceIdeal.Value.run (F := Ideal) m ρ)

theorem algebraic_of (h : GatherRun) : Cert.algebraic_KernelIdeal_ReferenceIdeal := by
  intro m ρ m' ρ' _ hagree
  refine ⟨truncf (F := Ideal) .bf16 (m' (((0 : Dev Cert.ReferenceIdeal.nD).tc : Thread Cert.ReferenceIdeal.nD Cert.ReferenceIdeal.τ).loc
    Cert.ReferenceIdeal.main_arg0)) Cert.ReferenceIdeal.Gen.bitsLt_bf16_f32, ?_, ?_⟩
  · exact (θ_run _ _ _).mono
      (fun _ post c => ⟨(post c).1.trans (gathered_eq m _ hagree c), (post c).2⟩) (h m ρ)
  · exact (θ_run _ _ _).mono (fun _ post => post 0) (Cert.ReferenceIdeal.Value.run (F := Ideal) m' ρ')

end Cert.KernelIdealProof.Value

end
-- ==== Proof.lean ====
/-
  The certificate of the pairwise all-gather: on a 2 × 2 × 4 mesh every device converts its 256 × 256 block of a
  512 × 256 array to the narrower float format, stores it in its own rows of a 512 × 256 result and, after a
  handshake on the barrier semaphore, copies those rows into the same rows of the result of the device that differs
  in the second mesh coordinate. Every device ends with the whole array converted, which is what the reference
  computes on one device; over the extended reals the conversion is the identity, so the two agree element by element.

  The frames of the two printed kernels are one run each (the word-level program and its idealization are the same
  text read at two float instances): every device's body is stepped once at a symbolic device under the rounds
  discipline, and the launch theorem for devices that owe units at launch turns the sixteen body obligations into the
  run of the whole mesh, with each device's result array named. The reference's frame is its run with the result
  dropped. The idealization rewrote nothing, so it preserves the program trivially.
-/
import proofs.«900682_g7700000000000683_dist_ag_v7x_xyz2x2x4_y_m256_n256_bf16_1_alg».proof.Defs
import proofs.«900682_g7700000000000683_dist_ag_v7x_xyz2x2x4_y_m256_n256_bf16_1_alg».proof.Proof.Gen.Kernel
import proofs.«900682_g7700000000000683_dist_ag_v7x_xyz2x2x4_y_m256_n256_bf16_1_alg».proof.Proof.Gen.Kernel.Skeleton
import proofs.«900682_g7700000000000683_dist_ag_v7x_xyz2x2x4_y_m256_n256_bf16_1_alg».proof.Proof.Gen.Kernel.Launch
import proofs.«900682_g7700000000000683_dist_ag_v7x_xyz2x2x4_y_m256_n256_bf16_1_alg».proof.Proof.Gen.Kernel.Points
import proofs.«900682_g7700000000000683_dist_ag_v7x_xyz2x2x4_y_m256_n256_bf16_1_alg».proof.Proof.Gen.Kernel.Frame
import proofs.«900682_g7700000000000683_dist_ag_v7x_xyz2x2x4_y_m256_n256_bf16_1_alg».proof.Proof.Gen.KernelIdeal
import proofs.«900682_g7700000000000683_dist_ag_v7x_xyz2x2x4_y_m256_n256_bf16_1_alg».proof.Proof.Gen.KernelIdeal.Skeleton
import proofs.«900682_g7700000000000683_dist_ag_v7x_xyz2x2x4_y_m256_n256_bf16_1_alg».proof.Proof.Gen.KernelIdeal.Launch
import proofs.«900682_g7700000000000683_dist_ag_v7x_xyz2x2x4_y_m256_n256_bf16_1_alg».proof.Proof.Gen.KernelIdeal.Points
import proofs.«900682_g7700000000000683_dist_ag_v7x_xyz2x2x4_y_m256_n256_bf16_1_alg».proof.Proof.Gen.KernelIdeal.Frame
import proofs.«900682_g7700000000000683_dist_ag_v7x_xyz2x2x4_y_m256_n256_bf16_1_alg».proof.Proof.Gen.ReferenceIdeal
import proofs.«900682_g7700000000000683_dist_ag_v7x_xyz2x2x4_y_m256_n256_bf16_1_alg».proof.Proof.Gen.Pre_finite_inputs_Kernel
import proofs.«900682_g7700000000000683_dist_ag_v7x_xyz2x2x4_y_m256_n256_bf16_1_alg».proof.Proof.Gen.Pre_finite_inputs_ReferenceIdeal
import proofs.«900682_g7700000000000683_dist_ag_v7x_xyz2x2x4_y_m256_n256_bf16_1_alg».proof.Proof.KernelBody
import proofs.«900682_g7700000000000683_dist_ag_v7x_xyz2x2x4_y_m256_n256_bf16_1_alg».proof.Proof.KernelLaunch
import proofs.«900682_g7700000000000683_dist_ag_v7x_xyz2x2x4_y_m256_n256_bf16_1_alg».proof.Proof.KernelIdealBody
import proofs.«900682_g7700000000000683_dist_ag_v7x_xyz2x2x4_y_m256_n256_bf16_1_alg».proof.Proof.KernelIdealLaunch
import proofs.«900682_g7700000000000683_dist_ag_v7x_xyz2x2x4_y_m256_n256_bf16_1_alg».proof.Proof.IdealValue
import Idealize.ShloMosaic.Adequacy
import Idealize.ShloMosaic.Init

noncomputable section

namespace Cert.Proof

open Idealize.ShloMosaic Idealize.SL.Sem

/-- The word-level kernel runs and leaves every device's argument as it was: its run with the result dropped. -/
theorem frame_k : Cert.frame_Kernel := fun m ρ _ =>
  (θ_run Cert.Kernel.defs _ _).mono (fun _ h c => (h c).2)
    (Cert.KernelProof.run_gathered_of (F := Bits) m ρ (Cert.KernelProof.body_obligation m))

/-- The same of the idealized kernel. -/
theorem frame_ki : Cert.frame_KernelIdeal := fun m ρ _ =>
  (θ_run Cert.KernelIdeal.defs _ _).mono (fun _ h c => (h c).2)
    (Cert.KernelIdealProof.run_gathered_of (F := Ideal) m ρ (Cert.KernelIdealProof.body_obligation m))

/-- Over the extended reals every device ends with the reference's result. -/
theorem algebraic : Cert.algebraic_KernelIdeal_ReferenceIdeal :=
  Cert.KernelIdealProof.Value.algebraic_of fun m ρ =>
    Cert.KernelIdealProof.run_gathered_of (F := Ideal) m ρ (Cert.KernelIdealProof.body_obligation m)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdealProof.Value.frame_ri, trivial, algebraic⟩

end Cert.Proof

end
